-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x262144 : Shape := ⟨2, ![32, 262144]⟩
abbrev S1026x1024 : Shape := ⟨2, ![1026, 1024]⟩
abbrev S_ : Shape := ⟨0, ![]⟩

class Facts : Prop where
  bcast_S_S32x262144 : S_.BroadcastsInDim S32x262144 (![] : Fin 0 → Fin S32x262144.rank)
  reducesTo_S32x262144_S_d0_1 : S32x262144.ReducesTo [0, 1] S_
  h_S_ : 0 < S_.numel
  bcast_S_S1026x1024 : S_.BroadcastsInDim S1026x1024 (![] : Fin 0 → Fin S1026x1024.rank)
  reducesTo_S1026x1024_S_d0_1 : S1026x1024.ReducesTo [0, 1] S_

variable [Facts]

def fn {F : FTy → Type} [FloatOps F] (main_arg0 : FVec F S32x262144 .f32) (main_arg1 : FVec F S1026x1024 .f32) : IVec S_ 1 :=
  let main_v0 : FVec F S32x262144 .f32 := Host.absf main_arg0
  let main_cst : FVec F S_ .f32 := constant S_ .f32 0x7F800000#32
  let main_v1 : FVec F S32x262144 .f32 := broadcastInDim S32x262144 ![] bcast_S_S32x262144 main_cst
  let main_v2 : IVec S32x262144 1 := cmpf .olt main_v0 main_v1
  let main_c : IVec S_ 1 := constantI S_ 1 1#1
  let main_v3 : IVec S_ 1 := (fun x v => Host.reduce IntOp.andi x v reducesTo_S32x262144_S_d0_1 h_S_) main_v2 main_c
  let main_v4 : FVec F S1026x1024 .f32 := Host.absf main_arg1
  let main_cst_0 : FVec F S_ .f32 := constant S_ .f32 0x7F800000#32
  let main_v5 : FVec F S1026x1024 .f32 := broadcastInDim S1026x1024 ![] bcast_S_S1026x1024 main_cst_0
  let main_v6 : IVec S1026x1024 1 := cmpf .olt main_v4 main_v5
  let main_c_1 : IVec S_ 1 := constantI S_ 1 1#1
  let main_v7 : IVec S_ 1 := (fun x v => Host.reduce IntOp.andi x v reducesTo_S1026x1024_S_d0_1 h_S_) main_v6 main_c_1
  let main_v8 : IVec S_ 1 := andi main_v3 main_v7
  main_v8
-- ==== Kernel.lean ====
abbrev S32x262144 : Shape := ⟨2, ![32, 262144]⟩
abbrev S1026x1024 : Shape := ⟨2, ![1026, 1024]⟩
abbrev S_ : Shape := ⟨0, ![]⟩
abbrev S32x1 : Shape := ⟨2, ![32, 1]⟩
abbrev S32x512 : Shape := ⟨2, ![32, 512]⟩
abbrev S32x262656 : Shape := ⟨2, ![32, 262656]⟩
abbrev S32x263168 : Shape := ⟨2, ![32, 263168]⟩
abbrev S32x1028x256 : Shape := ⟨3, ![32, 1028, 256]⟩
abbrev S1024x1026 : Shape := ⟨2, ![1024, 1026]⟩
abbrev S32x1025x513 : Shape := ⟨3, ![32, 1025, 513]⟩
abbrev S1x1028x256 : Shape := ⟨3, ![1, 1028, 256]⟩
abbrev S1x1025x513 : Shape := ⟨3, ![1, 1025, 513]⟩
abbrev S1028x256 : Shape := ⟨2, ![1028, 256]⟩
abbrev S1025x1026 : Shape := ⟨2, ![1025, 1026]⟩
abbrev S1025x256 : Shape := ⟨2, ![1025, 256]⟩
abbrev S256x1026 : Shape := ⟨2, ![256, 1026]⟩
abbrev S1025x513 : Shape := ⟨2, ![1025, 513]⟩
abbrev S32x513x1025 : Shape := ⟨3, ![32, 513, 1025]⟩

abbrev nBuf : Space → Nat
  | .hbm => 15
  | .vmem => 5
  | .smem => 0
  | _ => 0

abbrev bufTy : (tb : Table) → Fin (tcTables nBuf tb) → BufTy
  | .hbm, ⟨0, _⟩ => ⟨S32x262144, .f32⟩
  | .hbm, ⟨1, _⟩ => ⟨S1026x1024, .f32⟩
  | .hbm, ⟨2, _⟩ => ⟨S_, .i32⟩
  | .hbm, ⟨3, _⟩ => ⟨S32x1, .f32⟩
  | .hbm, ⟨4, _⟩ => ⟨S32x512, .f32⟩
  | .hbm, ⟨5, _⟩ => ⟨S32x512, .f32⟩
  | .hbm, ⟨6, _⟩ => ⟨S32x262656, .f32⟩
  | .hbm, ⟨7, _⟩ => ⟨S32x1, .f32⟩
  | .hbm, ⟨8, _⟩ => ⟨S32x512, .f32⟩
  | .hbm, ⟨9, _⟩ => ⟨S32x512, .f32⟩
  | .hbm, ⟨10, _⟩ => ⟨S32x263168, .f32⟩
  | .hbm, ⟨11, _⟩ => ⟨S32x1028x256, .f32⟩
  | .hbm, ⟨12, _⟩ => ⟨S1024x1026, .f32⟩
  | .hbm, ⟨13, _⟩ => ⟨S32x1025x513, .f32⟩
  | .hbm, ⟨14, _⟩ => ⟨S32x513x1025, .f32⟩
  | .local _ .vmem, ⟨0, _⟩ => ⟨S1x1028x256, .f32⟩
  | .local _ .vmem, ⟨1, _⟩ => ⟨S1x1028x256, .f32⟩
  | .local _ .vmem, ⟨2, _⟩ => ⟨S1024x1026, .f32⟩
  | .local _ .vmem, ⟨3, _⟩ => ⟨S1x1025x513, .f32⟩
  | .local _ .vmem, ⟨4, _⟩ => ⟨S1x1025x513, .f32⟩
  | _, _ => ⟨S32x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1028x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1026 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1025x513 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S32x262144_S32x1_0_0 : S32x262144.Slices ![0, 0] S32x1
  slices_S32x262144_S32x512_0_1 : S32x262144.Slices ![0, 1] S32x512
  concatenates_S32x512_S32x262144_S32x262656_d1 : Shape.Concatenates [S32x512, S32x262144] S32x262656 1
  slices_S32x262656_S32x1_0_262655 : S32x262656.Slices ![0, 262655] S32x1
  slices_S32x262656_S32x512_0_262143 : S32x262656.Slices ![0, 262143] S32x512
  concatenates_S32x262656_S32x512_S32x263168_d1 : Shape.Concatenates [S32x262656, S32x512] S32x263168 1
  shapeCasts_S32x263168_S32x1028x256 : S32x263168.ShapeCasts S32x1028x256
  transposes_S1026x1024_S1024x1026_1_0 : S1026x1024.Transposes [1, 0] S1024x1026
  inb_S1x1028x256_S1x1028x256_0_0_0 : ∀ a, (![0, 0, 0] : Fin 3 → Nat) a + S1x1028x256.size a ≤ S1x1028x256.size a
  h_S1x1028x256 : 0 < S1x1028x256.numel
  shapeCasts_S1x1028x256_S1028x256 : S1x1028x256.ShapeCasts S1028x256
  inb_S1024x1026_S1024x1026_0_0 : ∀ a, (![0, 0] : Fin 2 → Nat) a + S1024x1026.size a ≤ S1024x1026.size a
  h_S1024x1026 : 0 < S1024x1026.numel
  shapeCasts_S1024x1026_S1024x1026 : S1024x1026.ShapeCasts S1024x1026
  slices_S1028x256_o0_0_S1025x256 : S1028x256.Slices ![0, 0] S1025x256
  bitsLt_bf16_f32 : FTy.bits .bf16 < FTy.bits .f32
  slices_S1024x1026_o0_0_S256x1026 : S1024x1026.Slices ![0, 0] S256x1026
  slices_S1028x256_o1_0_S1025x256 : S1028x256.Slices ![1, 0] S1025x256
  slices_S1024x1026_o256_0_S256x1026 : S1024x1026.Slices ![256, 0] S256x1026
  slices_S1028x256_o2_0_S1025x256 : S1028x256.Slices ![2, 0] S1025x256
  slices_S1024x1026_o512_0_S256x1026 : S1024x1026.Slices ![512, 0] S256x1026
  slices_S1028x256_o3_0_S1025x256 : S1028x256.Slices ![3, 0] S1025x256
  slices_S1024x1026_o768_0_S256x1026 : S1024x1026.Slices ![768, 0] S256x1026
  slices_S1025x1026_o0_0_S1025x513 : S1025x1026.Slices ![0, 0] S1025x513
  slices_S1025x1026_o0_513_S1025x513 : S1025x1026.Slices ![0, 513] S1025x513
  inb_S1x1025x513_S1x1025x513_0_0_0 : ∀ a, (![0, 0, 0] : Fin 3 → Nat) a + S1x1025x513.size a ≤ S1x1025x513.size a
  h_S1x1025x513 : 0 < S1x1025x513.numel
  shapeCasts_S1x1025x513_S1025x513 : S1x1025x513.ShapeCasts S1025x513
  shapeCasts_S1025x513_S1x1025x513 : S1025x513.ShapeCasts S1x1025x513
  transposes_S32x1025x513_S32x513x1025_0_2_1 : S32x1025x513.Transposes [0, 2, 1] S32x513x1025
  dot_S1025x256_S256x1026_S1025x1026_1_0_0_1_n_n_wf : DotDims.WF S1025x256 S256x1026 S1025x1026 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1028x256.size a ≤ S32x1028x256.size a
  hwx0_0 : ∀ i : grid0.Coords, EltTy.bits .f32 = 32 ∨ (Rect.block (s := S32x1028x256) S1x1028x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1026.size a ≤ S1024x1026.size a
  hwx0_1 : ∀ i : grid0.Coords, EltTy.bits .f32 = 32 ∨ (Rect.block (s := S1024x1026) S1024x1026.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1025x513.size a ≤ S32x1025x513.size a
  hwx0_2 : ∀ i : grid0.Coords, EltTy.bits .f32 = 32 ∨ (Rect.block (s := S32x1025x513) S1x1025x513.size (cc0_transform_2 i) (hinb0_2 i)).WholeWords (EltTy.packing .f32)

variable [Facts₀]

def dot_S1025x256_S256x1026_S1025x1026_1_0_0_1_n_n : DotDims S1025x256 S256x1026 S1025x1026 where
  lhsContracting := [1]
  rhsContracting := [0]
  lhsNonContracting := [0]
  rhsNonContracting := [1]
  lhsBatch := []
  rhsBatch := []
  wf := dot_S1025x256_S256x1026_S1025x1026_1_0_0_1_n_n_wf

abbrev win0_0 : Pipeline.Window sig grid0 :=
  Pipeline.Window.ofSpec (Memref.whole main_v1) S1x1028x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1026.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1025x513.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x262144 : Shape := ⟨2, ![32, 262144]⟩
abbrev S1026x1024 : Shape := ⟨2, ![1026, 1024]⟩
abbrev S_ : Shape := ⟨0, ![]⟩
abbrev S32x1 : Shape := ⟨2, ![32, 1]⟩
abbrev S32x512 : Shape := ⟨2, ![32, 512]⟩
abbrev S32x262656 : Shape := ⟨2, ![32, 262656]⟩
abbrev S32x263168 : Shape := ⟨2, ![32, 263168]⟩
abbrev S1025 : Shape := ⟨1, ![1025]⟩
abbrev S1025x1 : Shape := ⟨2, ![1025, 1]⟩
abbrev S1024 : Shape := ⟨1, ![1024]⟩
abbrev S1x1024 : Shape := ⟨2, ![1, 1024]⟩
abbrev S1025x1024 : Shape := ⟨2, ![1025, 1024]⟩
abbrev S1025x1024x1 : Shape := ⟨3, ![1025, 1024, 1]⟩
abbrev S32x1025x1024 : Shape := ⟨3, ![32, 1025, 1024]⟩
abbrev S1026x32x1025 : Shape := ⟨3, ![1026, 32, 1025]⟩
abbrev S32x1026x1025 : Shape := ⟨3, ![32, 1026, 1025]⟩
abbrev S32x513x1025 : Shape := ⟨3, ![32, 513, 1025]⟩

abbrev nBuf : Space → Nat
  | .hbm => 38
  | .vmem => 0
  | .smem => 0
  | _ => 0

abbrev bufTy : (tb : Table) → Fin (tcTables nBuf tb) → BufTy
  | .hbm, ⟨0, _⟩ => ⟨S32x262144, .f32⟩
  | .hbm, ⟨1, _⟩ => ⟨S1026x1024, .f32⟩
  | .hbm, ⟨2, _⟩ => ⟨S_, .i32⟩
  | .hbm, ⟨3, _⟩ => ⟨S32x1, .f32⟩
  | .hbm, ⟨4, _⟩ => ⟨S32x512, .f32⟩
  | .hbm, ⟨5, _⟩ => ⟨S32x512, .f32⟩
  | .hbm, ⟨6, _⟩ => ⟨S32x262656, .f32⟩
  | .hbm, ⟨7, _⟩ => ⟨S32x1, .f32⟩
  | .hbm, ⟨8, _⟩ => ⟨S32x512, .f32⟩
  | .hbm, ⟨9, _⟩ => ⟨S32x512, .f32⟩
  | .hbm, ⟨10, _⟩ => ⟨S32x263168, .f32⟩
  | .hbm, ⟨11, _⟩ => ⟨S1025, .i32⟩
  | .hbm, ⟨12, _⟩ => ⟨S1025x1, .i32⟩
  | .hbm, ⟨13, _⟩ => ⟨S_, .i32⟩
  | .hbm, ⟨14, _⟩ => ⟨S1025x1, .i32⟩
  | .hbm, ⟨15, _⟩ => ⟨S1025x1, .i32⟩
  | .hbm, ⟨16, _⟩ => ⟨S1024, .i32⟩
  | .hbm, ⟨17, _⟩ => ⟨S1x1024, .i32⟩
  | .hbm, ⟨18, _⟩ => ⟨S1025x1024, .i32⟩
  | .hbm, ⟨19, _⟩ => ⟨S1025x1024, .i32⟩
  | .hbm, ⟨20, _⟩ => ⟨S1025x1024, .i32⟩
  | .hbm, ⟨21, _⟩ => ⟨S_, .i32⟩
  | .hbm, ⟨22, _⟩ => ⟨S1025x1024, .i32⟩
  | .hbm, ⟨23, _⟩ => ⟨S1025x1024, .i1⟩
  | .hbm, ⟨24, _⟩ => ⟨S_, .i32⟩
  | .hbm, ⟨25, _⟩ => ⟨S1025x1024, .i32⟩
  | .hbm, ⟨26, _⟩ => ⟨S1025x1024, .i32⟩
  | .hbm, ⟨27, _⟩ => ⟨S1025x1024, .i32⟩
  | .hbm, ⟨28, _⟩ => ⟨S1025x1024x1, .i32⟩
  | .hbm, ⟨29, _⟩ => ⟨S32x1025x1024, .f32⟩
  | .hbm, ⟨30, _⟩ => ⟨S1026x32x1025, .f32⟩
  | .hbm, ⟨31, _⟩ => ⟨S32x1026x1025, .f32⟩
  | .hbm, ⟨32, _⟩ => ⟨S32x513x1025, .f32⟩
  | .hbm, ⟨33, _⟩ => ⟨S32x513x1025, .f32⟩
  | .hbm, ⟨34, _⟩ => ⟨S32x513x1025, .f32⟩
  | .hbm, ⟨35, _⟩ => ⟨S32x513x1025, .f32⟩
  | .hbm, ⟨36, _⟩ => ⟨S32x513x1025, .f32⟩
  | .hbm, ⟨37, _⟩ => ⟨S32x513x1025, .f32⟩
  | _, _ => ⟨S32x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  slices_S32x262144_S32x1_0_0 : S32x262144.Slices ![0, 0] S32x1
  slices_S32x262144_S32x512_0_1 : S32x262144.Slices ![0, 1] S32x512
  concatenates_S32x512_S32x262144_S32x262656_d1 : Shape.Concatenates [S32x512, S32x262144] S32x262656 1
  slices_S32x262656_S32x1_0_262655 : S32x262656.Slices ![0, 262655] S32x1
  slices_S32x262656_S32x512_0_262143 : S32x262656.Slices ![0, 262143] S32x512
  concatenates_S32x262656_S32x512_S32x263168_d1 : Shape.Concatenates [S32x262656, S32x512] S32x263168 1
  bcast_S1025_S1025x1_0 : S1025.BroadcastsInDim S1025x1 (![0] : Fin 1 → Fin S1025x1.rank)
  bcast_S_S1025x1 : S_.BroadcastsInDim S1025x1 (![] : Fin 0 → Fin S1025x1.rank)
  bcast_S1024_S1x1024_1 : S1024.BroadcastsInDim S1x1024 (![1] : Fin 1 → Fin S1x1024.rank)
  bcast_S1025x1_S1025x1024_0_1 : S1025x1.BroadcastsInDim S1025x1024 (![0, 1] : Fin 2 → Fin S1025x1024.rank)
  bcast_S1x1024_S1025x1024_0_1 : S1x1024.BroadcastsInDim S1025x1024 (![0, 1] : Fin 2 → Fin S1025x1024.rank)
  bcast_S_S1025x1024 : S_.BroadcastsInDim S1025x1024 (![] : Fin 0 → Fin S1025x1024.rank)
  bcast_S1025x1024_S1025x1024x1_0_1 : S1025x1024.BroadcastsInDim S1025x1024x1 (![0, 1] : Fin 2 → Fin S1025x1024x1.rank)
  transposes_S1026x32x1025_S32x1026x1025_1_0_2 : S1026x32x1025.Transposes [1, 0, 2] S32x1026x1025
  slices_S32x1026x1025_S32x513x1025_0_0_0 : S32x1026x1025.Slices ![0, 0, 0] S32x513x1025
  slices_S32x1026x1025_S32x513x1025_0_513_0 : S32x1026x1025.Slices ![0, 513, 0] S32x513x1025
  gather_S32x263168_S1025x1024x1_S32x1025x1024_0_1_n_n_1_2_321_wf : GatherDims.WF S32x263168 S1025x1024x1 S32x1025x1024 [0] [1] [] [1] [] 2 ![32, 1]
  dot_S1026x1024_S32x1025x1024_S1026x32x1025_1_2_0_01_n_n_wf : DotDims.WF S1026x1024 S32x1025x1024 S1026x32x1025 [1] [2] [0] [0, 1] [] []

variable [Facts₀]

def gather_S32x263168_S1025x1024x1_S32x1025x1024_0_1_n_n_1_2_321 : GatherDims S32x263168 S1025x1024x1 S32x1025x1024 where
  offsetDims := [0]
  collapsedSliceDims := [1]
  operandBatchingDims := []
  startIndicesBatchingDims := []
  startIndexMap := [1]
  indexVectorDim := 2
  sliceSizes := ![32, 1]
  wf := gather_S32x263168_S1025x1024x1_S32x1025x1024_0_1_n_n_1_2_321_wf
def dot_S1026x1024_S32x1025x1024_S1026x32x1025_1_2_0_01_n_n : DotDims S1026x1024 S32x1025x1024 S1026x32x1025 where
  lhsContracting := [1]
  rhsContracting := [2]
  lhsNonContracting := [0]
  rhsNonContracting := [0, 1]
  lhsBatch := []
  rhsBatch := []
  wf := dot_S1026x1024_S32x1025x1024_S1026x32x1025_1_2_0_01_n_n_wf

class Facts : Prop extends Facts₀ where

variable [Facts]
-- ==== Proof.KernelTerm.lean ====
/-
  The kernel program's padded signal as one term of its first argument: the same reflect padding the reference
  applies, 512 samples mirrored at each end of every row.
-/
import proofs.«162435_j42271068127681_1_alg».proof.Proof.Gen.KernelIdeal

noncomputable section

namespace Cert.KernelIdeal.Term

open Idealize.ShloMosaic Cert.KernelIdeal Cert.KernelIdeal.Gen

variable {F : FTy → Type} [FloatOps F]

/-- The signal reflect-padded by 512 samples at each end: samples 512 … 1 reversed in front, then the signal,
    then its samples 262142 … 261631 reversed behind. -/
def padded (x : FVec F S32x262144 .f32) : FVec F S32x263168 .f32 :=
  concatenate S32x263168 1
    [⟨S32x262656, concatenate S32x262656 1 [⟨S32x512, Host.reverse [1] (extractStridedSlice S32x512 ![0, 1] x slices_S32x262144_S32x512_0_1)⟩, ⟨S32x262144, x⟩] concatenates_S32x512_S32x262144_S32x262656_d1⟩,
     ⟨S32x512, Host.reverse [1] (extractStridedSlice S32x512 ![0, 262143]
        (concatenate S32x262656 1 [⟨S32x512, Host.reverse [1] (extractStridedSlice S32x512 ![0, 1] x slices_S32x262144_S32x512_0_1)⟩, ⟨S32x262144, x⟩] concatenates_S32x512_S32x262144_S32x262656_d1)
        slices_S32x262656_S32x512_0_262143)⟩]
    concatenates_S32x262656_S32x512_S32x263168_d1

end Cert.KernelIdeal.Term

end
-- ==== Proof.Frames.lean ====
/-
  The short-time Fourier magnitude, as one function of the padded signal and the windowed Fourier basis.

  Frame t of batch row b is the 1024 consecutive samples of the padded row starting at sample 256·t; its inner
  product with basis row c is one of the 1026 real and imaginary Fourier coefficients, and the magnitude at
  (b, c, t), c < 513, is the square root of the sum of the squares of coefficients c and c + 513.

  A frame is four consecutive chunks of 256 samples, so the inner product over the frame is the sum over the
  four chunks of the inner products over a chunk: a sum over 1024 = 4 · 256 indices regrouped, which holds in
  any commutative additive monoid and so on the extended reals with no finiteness assumption.
-/
import Idealize.ShloMosaic.PureOps.Ideal
import Idealize.ShloMosaic.Lib.ValueIdx
import Mathlib.Algebra.BigOperators.Fin
import Mathlib.Logic.Equiv.Fin.Basic

noncomputable section

namespace Cert.Stft

open Idealize.ShloMosaic Idealize.ShloMosaic.ValueIdx
open scoped BigOperators

/-- The padded signal: 32 rows of 263168 samples. -/
abbrev SPad : Shape := ⟨2, ![32, 263168]⟩
/-- The basis: 1026 rows (513 real, then 513 imaginary) of 1024 taps. -/
abbrev SBasis : Shape := ⟨2, ![1026, 1024]⟩
/-- The magnitudes: batch, frequency bin, frame. -/
abbrev SMag : Shape := ⟨3, ![32, 513, 1025]⟩
/-- One batch row of the padded signal cut into 1028 chunks of 256 samples, with a leading unit axis. -/
abbrev SChunks : Shape := ⟨3, ![1, 1028, 256]⟩
/-- The basis transposed: taps by rows. -/
abbrev SBasisT : Shape := ⟨2, ![1024, 1026]⟩

/-- Coefficient c of frame t of row b: the inner product of basis row c with the 1024 samples from 256·t on. -/
def coeff (xp : SPad.Idx → EReal) (w : SBasis.Idx → EReal) (b : Fin 32) (c : Fin 1026) (t : Fin 1025) : EReal :=
  ∑ n : Fin 1024, w (ix2 c n) * xp (ix2 b (⟨256 * t.val + n.val, by omega⟩ : Fin 263168))

/-- The magnitude at (b, c, t): the root of the squares of the real coefficient c and the imaginary one c + 513. -/
def mag (xp : SPad.Idx → EReal) (w : SBasis.Idx → EReal) (b : Fin 32) (c : Fin 513) (t : Fin 1025) : EReal :=
  Ideal.sqrt (coeff xp w b ⟨c.val, by omega⟩ t * coeff xp w b ⟨c.val, by omega⟩ t
    + coeff xp w b ⟨c.val + 513, by omega⟩ t * coeff xp w b ⟨c.val + 513, by omega⟩ t)

/-- The whole magnitude array. -/
def magnitude (xp : SPad.Idx → EReal) (w : SBasis.Idx → EReal) : SMag.Idx → EReal :=
  fun i => mag xp w (i 0) (i 1) (i 2)

/-- The same coefficient computed from one row's chunks and the transposed basis: the sum over the four chunk
    shifts k of the inner product of chunk t + k with taps 256·k … 256·k + 255 of column c. -/
def coeffChunks (C : SChunks.Idx → EReal) (BT : SBasisT.Idx → EReal) (t : Fin 1025) (c : Fin 1026) : EReal :=
  ∑ k : Fin 4, ∑ j : Fin 256,
    C (ix3 (0 : Fin 1) (⟨t.val + k.val, by omega⟩ : Fin 1028) j) * BT (ix2 (⟨256 * k.val + j.val, by omega⟩ : Fin 1024) c)

/-- The magnitude from one row's chunks. -/
def magChunks (C : SChunks.Idx → EReal) (BT : SBasisT.Idx → EReal) (t : Fin 1025) (c : Fin 513) : EReal :=
  Ideal.sqrt (coeffChunks C BT t ⟨c.val, by omega⟩ * coeffChunks C BT t ⟨c.val, by omega⟩
    + coeffChunks C BT t ⟨c.val + 513, by omega⟩ * coeffChunks C BT t ⟨c.val + 513, by omega⟩)

/-- A sum over 1024 indices is the sum over four blocks of 256. -/
theorem sum_four_blocks {M : Type} [AddCommMonoid M] (f : Fin 1024 → M) :
    ∑ n : Fin 1024, f n = ∑ k : Fin 4, ∑ j : Fin 256, f (⟨256 * k.val + j.val, by omega⟩ : Fin 1024) := by
  rw [← Equiv.sum_comp (finProdFinEquiv (m := 4) (n := 256)) f, Fintype.sum_prod_type]
  refine Finset.sum_congr rfl fun k _ => Finset.sum_congr rfl fun j _ => congrArg f (Fin.ext ?_)
  show j.val + 256 * k.val = 256 * k.val + j.val
  omega

/-- When the chunks are row b of the padded signal (chunk r holds samples 256·r … 256·r + 255) and the second
    operand is the transposed basis, the chunked coefficient is the frame's coefficient. -/
theorem coeffChunks_eq (xp : SPad.Idx → EReal) (w : SBasis.Idx → EReal) (C : SChunks.Idx → EReal) (BT : SBasisT.Idx → EReal)
    (b : Fin 32)
    (hC : ∀ (r : Fin 1028) (j : Fin 256), C (ix3 (0 : Fin 1) r j) = xp (ix2 b (⟨256 * r.val + j.val, by omega⟩ : Fin 263168)))
    (hBT : ∀ (n : Fin 1024) (c : Fin 1026), BT (ix2 n c) = w (ix2 c n))
    (t : Fin 1025) (c : Fin 1026) : coeffChunks C BT t c = coeff xp w b c t := by
  unfold coeffChunks coeff
  rw [sum_four_blocks]
  refine Finset.sum_congr rfl fun k _ => Finset.sum_congr rfl fun j _ => ?_
  rw [hC, hBT, mul_comm]
  refine congrArg (fun z => w (ix2 c _) * xp (ix2 b z)) (Fin.ext ?_)
  show 256 * (t.val + k.val) + j.val = 256 * t.val + (256 * k.val + j.val)
  omega

/-- So the chunked magnitude is the magnitude. -/
theorem magChunks_eq (xp : SPad.Idx → EReal) (w : SBasis.Idx → EReal) (C : SChunks.Idx → EReal) (BT : SBasisT.Idx → EReal)
    (b : Fin 32)
    (hC : ∀ (r : Fin 1028) (j : Fin 256), C (ix3 (0 : Fin 1) r j) = xp (ix2 b (⟨256 * r.val + j.val, by omega⟩ : Fin 263168)))
    (hBT : ∀ (n : Fin 1024) (c : Fin 1026), BT (ix2 n c) = w (ix2 c n))
    (t : Fin 1025) (c : Fin 513) : magChunks C BT t c = mag xp w b c t := by
  unfold magChunks mag
  rw [coeffChunks_eq xp w C BT b hC hBT, coeffChunks_eq xp w C BT b hC hBT]

end Cert.Stft

end
-- ==== Proof.KernelPayload.lean ====
/-
  The value the kernel body stores, read at an index, at the ideal values.

  The body cuts four row-shifted slices out of the chunked signal row (rows k … k + 1024 of the 1028 chunks, k = 0 … 3) and
  four blocks of 256 taps out of the transposed basis (taps 256·k … 256·k + 255), multiplies each pair as matrices and
  adds the four products. Entry (t, c) of product k is the inner product of chunk t + k with taps 256·k … 256·k + 255 of
  basis column c, so entry (t, c) of the sum is coefficient c of frame t. The stored value at (t, c), c < 513, is the
  square root of the squares of entries (t, c) and (t, c + 513): the magnitude from the row's chunks.
-/
import proofs.«162435_j42271068127681_1_alg».proof.Proof.Gen.KernelIdeal.Skeleton
import proofs.«162435_j42271068127681_1_alg».proof.Proof.Frames
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Payload

open Idealize.ShloMosaic Idealize.ShloMosaic.ValueIdx
open Cert.KernelIdeal Cert.KernelIdeal.Gen
open scoped BigOperators

/-! ## The operand indices of the matrix product -/

/-- The left operand's row is the result's row. -/
theorem lhs_0 (i : S1025x1026.Idx) (q : dot_S1025x256_S256x1026_S1025x1026_1_0_0_1_n_n.contr.Idx) :
    (dot_S1025x256_S256x1026_S1025x1026_1_0_0_1_n_n.lhsIdx i q 0).val = (i 0).val := by
  unfold DotDims.lhsIdx
  rw [dif_neg (show ¬(0 : Fin S1025x256.rank) ∈ dot_S1025x256_S256x1026_S1025x1026_1_0_0_1_n_n.lhsBatch by decide),
    dif_pos (show (0 : Fin S1025x256.rank) ∈ dot_S1025x256_S256x1026_S1025x1026_1_0_0_1_n_n.lhsNonContracting by decide)]
  rfl

/-- The left operand's column is the contracted position. -/
theorem lhs_1 (i : S1025x1026.Idx) (q : dot_S1025x256_S256x1026_S1025x1026_1_0_0_1_n_n.contr.Idx) :
    (dot_S1025x256_S256x1026_S1025x1026_1_0_0_1_n_n.lhsIdx i q 1).val = (q ⟨0, by decide⟩).val :=
  dot_S1025x256_S256x1026_S1025x1026_1_0_0_1_n_n.lhsIdx_val_of_single rfl i q

/-- The right operand's row is the contracted position. -/
theorem rhs_0 (i : S1025x1026.Idx) (q : dot_S1025x256_S256x1026_S1025x1026_1_0_0_1_n_n.contr.Idx) :
    (dot_S1025x256_S256x1026_S1025x1026_1_0_0_1_n_n.rhsIdx i q 0).val = (q ⟨0, by decide⟩).val :=
  dot_S1025x256_S256x1026_S1025x1026_1_0_0_1_n_n.rhsIdx_val_of_single rfl i q

/-- The right operand's column is the result's column. -/
theorem rhs_1 (i : S1025x1026.Idx) (q : dot_S1025x256_S256x1026_S1025x1026_1_0_0_1_n_n.contr.Idx) :
    (dot_S1025x256_S256x1026_S1025x1026_1_0_0_1_n_n.rhsIdx i q 1).val = (i 1).val := by
  unfold DotDims.rhsIdx
  rw [dif_neg (show ¬(1 : Fin S256x1026.rank) ∈ dot_S1025x256_S256x1026_S1025x1026_1_0_0_1_n_n.rhsBatch by decide),
    dif_pos (show (1 : Fin S256x1026.rank) ∈ dot_S1025x256_S256x1026_S1025x1026_1_0_0_1_n_n.rhsNonContracting by decide)]
  rfl

/-- A matrix product into the zero accumulator, read at (t, c): the inner product of row t and column c. -/
theorem matmul_at (A : FVec Ideal S1025x256 .bf16) (B : FVec Ideal S256x1026 .bf16) (t : Fin 1025) (c : Fin 1026) :
    matmul dot_S1025x256_S256x1026_S1025x1026_1_0_0_1_n_n none A B (constant (F := Ideal) S1025x1026 .f32 0x00000000#32) (ix2 t c)
      = ∑ j : Fin 256, A (ix2 t j) * B (ix2 j c) := by
  simp only [matmul]
  rw [Ideal.matmul_constant_zero_apply,
    ← Equiv.sum_comp (ValueIdx.contrEquiv1 dot_S1025x256_S256x1026_S1025x1026_1_0_0_1_n_n 256 rfl rfl).symm]
  refine Finset.sum_congr rfl fun k _ => ?_
  have hk := ValueIdx.contrEquiv1_symm_val dot_S1025x256_S256x1026_S1025x1026_1_0_0_1_n_n 256 rfl rfl k
  have el : dot_S1025x256_S256x1026_S1025x1026_1_0_0_1_n_n.lhsIdx (ix2 t c)
      ((ValueIdx.contrEquiv1 dot_S1025x256_S256x1026_S1025x1026_1_0_0_1_n_n 256 rfl rfl).symm k) = ix2 t k :=
    funext fun a => Fin.ext (by
      match a with
      | ⟨0, _⟩ => exact lhs_0 _ _
      | ⟨1, _⟩ => exact (lhs_1 _ _).trans hk)
  have er : dot_S1025x256_S256x1026_S1025x1026_1_0_0_1_n_n.rhsIdx (ix2 t c)
      ((ValueIdx.contrEquiv1 dot_S1025x256_S256x1026_S1025x1026_1_0_0_1_n_n 256 rfl rfl).symm k) = ix2 k c :=
    funext fun a => Fin.ext (by
      match a with
      | ⟨0, _⟩ => exact (rhs_0 _ _).trans hk
      | ⟨1, _⟩ => exact rhs_1 _ _)
  rw [el, er]

/-! ## The two operands of product k at an index -/

/-- Row t of the k-th shifted slice of the chunks is chunk t + k. -/
theorem chunks_at (x0 : Vec Ideal S1x1028x256 .f32) (k : Nat) (hk : k ≤ 3) (hs : S1028x256.Slices ![k, 0] S1025x256)
    (t : Fin 1025) (j : Fin 256) :
    (truncf .bf16 (extractStridedSlice S1025x256 ![k, 0] (shapeCast S1028x256 x0 shapeCasts_S1x1028x256_S1028x256) hs)
        bitsLt_bf16_f32 : FVec Ideal S1025x256 .bf16) (ix2 t j)
      = x0 (ix3 (0 : Fin 1) (⟨t.val + k, by omega⟩ : Fin 1028) j) := by
  show extractStridedSlice S1025x256 ![k, 0] (shapeCast S1028x256 x0 shapeCasts_S1x1028x256_S1028x256) hs (ix2 t j) = _
  refine (extractStridedSlice_apply ![k, 0] _ hs (ix2 t j) (ix2 (⟨t.val + k, by omega⟩ : Fin 1028) j) ?_).trans ?_
  · intro a
    match a with
    | ⟨0, _⟩ => show t.val + k = k + t.val; omega
    | ⟨1, _⟩ => show j.val = 0 + j.val; omega
  · exact shapeCast_1ab_ab_apply x0 shapeCasts_S1x1028x256_S1028x256 _ j

/-- Row j of the block of taps at offset o of the transposed basis is tap o + j. -/
theorem taps_at (x1 : Vec Ideal S1024x1026 .f32) (o : Nat) (ho : o ≤ 768) (hs : S1024x1026.Slices ![o, 0] S256x1026)
    (j : Fin 256) (c : Fin 1026) :
    (truncf .bf16 (extractStridedSlice S256x1026 ![o, 0] (shapeCast S1024x1026 x1 shapeCasts_S1024x1026_S1024x1026) hs)
        bitsLt_bf16_f32 : FVec Ideal S256x1026 .bf16) (ix2 j c)
      = x1 (ix2 (⟨o + j.val, by omega⟩ : Fin 1024) c) := by
  show extractStridedSlice S256x1026 ![o, 0] (shapeCast S1024x1026 x1 shapeCasts_S1024x1026_S1024x1026) hs (ix2 j c) = _
  rw [shapeCast_self]
  refine extractStridedSlice_apply ![o, 0] x1 hs (ix2 j c) (ix2 (⟨o + j.val, by omega⟩ : Fin 1024) c) ?_
  intro a
  match a with
  | ⟨0, _⟩ => show o + j.val = o + j.val; rfl
  | ⟨1, _⟩ => show c.val = 0 + c.val; omega

/-- Product k at (t, c): the inner product of chunk t + k with the taps o … o + 255 of column c. -/
theorem prod_at (x0 : Vec Ideal S1x1028x256 .f32) (x1 : Vec Ideal S1024x1026 .f32) (k o : Nat) (hk : k ≤ 3) (ho : o ≤ 768)
    (hs : S1028x256.Slices ![k, 0] S1025x256) (hs' : S1024x1026.Slices ![o, 0] S256x1026) (t : Fin 1025) (c : Fin 1026) :
    matmul dot_S1025x256_S256x1026_S1025x1026_1_0_0_1_n_n none
        (truncf .bf16 (extractStridedSlice S1025x256 ![k, 0] (shapeCast S1028x256 x0 shapeCasts_S1x1028x256_S1028x256) hs)
          bitsLt_bf16_f32 : FVec Ideal S1025x256 .bf16)
        (truncf .bf16 (extractStridedSlice S256x1026 ![o, 0] (shapeCast S1024x1026 x1 shapeCasts_S1024x1026_S1024x1026) hs')
          bitsLt_bf16_f32 : FVec Ideal S256x1026 .bf16)
        (constant (F := Ideal) S1025x1026 .f32 0x00000000#32) (ix2 t c)
      = ∑ j : Fin 256, x0 (ix3 (0 : Fin 1) (⟨t.val + k, by omega⟩ : Fin 1028) j) * x1 (ix2 (⟨o + j.val, by omega⟩ : Fin 1024) c) := by
  refine (matmul_at _ _ t c).trans ?_
  refine Finset.sum_congr rfl fun j _ => ?_
  exact congrArg₂ (· * ·) (chunks_at x0 k hk hs t j) (taps_at x1 o ho hs' j c)

/-! ## The sum of the four products -/

/-- The four products added onto the zero splat. -/
def acc (x0 : Vec Ideal S1x1028x256 .f32) (x1 : Vec Ideal S1024x1026 .f32) : FVec Ideal S1025x1026 .f32 :=
  have v1 : FVec Ideal S1028x256 .f32 := shapeCast S1028x256 x0 shapeCasts_S1x1028x256_S1028x256
  have v3 : FVec Ideal S1024x1026 .f32 := shapeCast S1024x1026 x1 shapeCasts_S1024x1026_S1024x1026
  have z : FVec Ideal S1025x1026 .f32 := constant (F := Ideal) S1025x1026 .f32 0x00000000#32
  have m0 : FVec Ideal S1025x1026 .f32 := matmul dot_S1025x256_S256x1026_S1025x1026_1_0_0_1_n_n none
    (truncf .bf16 (extractStridedSlice S1025x256 ![0, 0] v1 slices_S1028x256_o0_0_S1025x256) bitsLt_bf16_f32)
    (truncf .bf16 (extractStridedSlice S256x1026 ![0, 0] v3 slices_S1024x1026_o0_0_S256x1026) bitsLt_bf16_f32) z
  have m1 : FVec Ideal S1025x1026 .f32 := matmul dot_S1025x256_S256x1026_S1025x1026_1_0_0_1_n_n none
    (truncf .bf16 (extractStridedSlice S1025x256 ![1, 0] v1 slices_S1028x256_o1_0_S1025x256) bitsLt_bf16_f32)
    (truncf .bf16 (extractStridedSlice S256x1026 ![256, 0] v3 slices_S1024x1026_o256_0_S256x1026) bitsLt_bf16_f32) z
  have m2 : FVec Ideal S1025x1026 .f32 := matmul dot_S1025x256_S256x1026_S1025x1026_1_0_0_1_n_n none
    (truncf .bf16 (extractStridedSlice S1025x256 ![2, 0] v1 slices_S1028x256_o2_0_S1025x256) bitsLt_bf16_f32)
    (truncf .bf16 (extractStridedSlice S256x1026 ![512, 0] v3 slices_S1024x1026_o512_0_S256x1026) bitsLt_bf16_f32) z
  have m3 : FVec Ideal S1025x1026 .f32 := matmul dot_S1025x256_S256x1026_S1025x1026_1_0_0_1_n_n none
    (truncf .bf16 (extractStridedSlice S1025x256 ![3, 0] v1 slices_S1028x256_o3_0_S1025x256) bitsLt_bf16_f32)
    (truncf .bf16 (extractStridedSlice S256x1026 ![768, 0] v3 slices_S1024x1026_o768_0_S256x1026) bitsLt_bf16_f32) z
  addf (addf (addf (addf (broadcast S1025x1026 (Scalar.ofBits .f32 0x00000000#32)) m0) m1) m2) m3

/-- The stored value is the root of the squares of the two column halves of that sum. -/
theorem pay_eq (x0 : Vec Ideal S1x1028x256 .f32) (x1 : Vec Ideal S1024x1026 .f32) :
    k0_pay1 (F := Ideal) x0 x1 = shapeCast S1x1025x513 (sqrt (addf
      (mulf (extractStridedSlice S1025x513 ![0, 0] (acc x0 x1) slices_S1025x1026_o0_0_S1025x513)
        (extractStridedSlice S1025x513 ![0, 0] (acc x0 x1) slices_S1025x1026_o0_0_S1025x513))
      (mulf (extractStridedSlice S1025x513 ![0, 513] (acc x0 x1) slices_S1025x1026_o0_513_S1025x513)
        (extractStridedSlice S1025x513 ![0, 513] (acc x0 x1) slices_S1025x1026_o0_513_S1025x513))))
      shapeCasts_S1025x513_S1x1025x513 := rfl

/-- Entry (t, c) of the sum of the four products is coefficient c of frame t. -/
theorem acc_apply (x0 : Vec Ideal S1x1028x256 .f32) (x1 : Vec Ideal S1024x1026 .f32) (t : Fin 1025) (c : Fin 1026) :
    acc x0 x1 (ix2 t c) = Cert.Stft.coeffChunks x0 x1 t c := by
  have e0 := prod_at x0 x1 0 0 (by omega) (by omega) slices_S1028x256_o0_0_S1025x256 slices_S1024x1026_o0_0_S256x1026 t c
  have e1 := prod_at x0 x1 1 256 (by omega) (by omega) slices_S1028x256_o1_0_S1025x256 slices_S1024x1026_o256_0_S256x1026 t c
  have e2 := prod_at x0 x1 2 512 (by omega) (by omega) slices_S1028x256_o2_0_S1025x256 slices_S1024x1026_o512_0_S256x1026 t c
  have e3 := prod_at x0 x1 3 768 (by omega) (by omega) slices_S1028x256_o3_0_S1025x256 slices_S1024x1026_o768_0_S256x1026 t c
  unfold acc
  refine (congrArg₂ (· + ·) (congrArg₂ (· + ·) (congrArg₂ (· + ·) (congrArg₂ (· + ·) Ideal.ofBits_zero_f32 e0) e1) e2) e3).trans ?_
  unfold Cert.Stft.coeffChunks
  rw [zero_add, Fin.sum_univ_four]
  rfl

/-! ## The stored value at an index -/

/-- The left column half at (t, c) is the sum at (t, c). -/
theorem half0_at (v : FVec Ideal S1025x1026 .f32) (t : Fin 1025) (c : Fin 513) :
    extractStridedSlice S1025x513 ![0, 0] v slices_S1025x1026_o0_0_S1025x513 (ix2 t c)
      = v (ix2 t (⟨c.val, by omega⟩ : Fin 1026)) := by
  refine extractStridedSlice_apply ![0, 0] v slices_S1025x1026_o0_0_S1025x513 (ix2 t c) (ix2 t (⟨c.val, by omega⟩ : Fin 1026)) ?_
  intro a
  match a with
  | ⟨0, _⟩ => show t.val = 0 + t.val; omega
  | ⟨1, _⟩ => show c.val = 0 + c.val; omega

/-- The right column half at (t, c) is the sum at (t, c + 513). -/
theorem half1_at (v : FVec Ideal S1025x1026 .f32) (t : Fin 1025) (c : Fin 513) :
    extractStridedSlice S1025x513 ![0, 513] v slices_S1025x1026_o0_513_S1025x513 (ix2 t c)
      = v (ix2 t (⟨c.val + 513, by omega⟩ : Fin 1026)) := by
  refine extractStridedSlice_apply ![0, 513] v slices_S1025x1026_o0_513_S1025x513 (ix2 t c) (ix2 t (⟨c.val + 513, by omega⟩ : Fin 1026)) ?_
  intro a
  match a with
  | ⟨0, _⟩ => show t.val = 0 + t.val; omega
  | ⟨1, _⟩ => show c.val + 513 = 513 + c.val; omega

/-- The value the body stores, at (0, t, c), is the magnitude of bin c of frame t computed from the row's chunks. -/
theorem pay_apply (x0 : Vec Ideal S1x1028x256 .f32) (x1 : Vec Ideal S1024x1026 .f32) (t : Fin 1025) (c : Fin 513) :
    k0_pay1 (F := Ideal) x0 x1 (ValueIdx.ix3 (0 : Fin 1) t c) = Cert.Stft.magChunks x0 x1 t c := by
  have a0 : extractStridedSlice S1025x513 ![0, 0] (acc x0 x1) slices_S1025x1026_o0_0_S1025x513 (ix2 t c)
      = Cert.Stft.coeffChunks x0 x1 t ⟨c.val, by omega⟩ :=
    (half0_at (acc x0 x1) t c).trans (acc_apply x0 x1 t _)
  have a1 : extractStridedSlice S1025x513 ![0, 513] (acc x0 x1) slices_S1025x1026_o0_513_S1025x513 (ix2 t c)
      = Cert.Stft.coeffChunks x0 x1 t ⟨c.val + 513, by omega⟩ :=
    (half1_at (acc x0 x1) t c).trans (acc_apply x0 x1 t _)
  rw [pay_eq]
  refine (shapeCast_ab_1ab_apply _ shapeCasts_S1025x513_S1x1025x513 (0 : Fin 1) t c).trans ?_
  unfold Cert.Stft.magChunks
  exact congrArg Ideal.sqrt (congrArg₂ (· + ·) (congrArg₂ (· * ·) a0 a0) (congrArg₂ (· * ·) a1 a1))

end Cert.KernelIdeal.Payload

end
-- ==== Proof.KernelValue.lean ====
/-
  What the kernel program leaves in its result array, at the ideal instance.

  The region's first operand is the padded signal cut into chunks of 256 samples (a reshape: chunk r of row b holds
  samples 256·r … 256·r + 255), its second the basis transposed; grid point b stages row b's 1028 chunks and the
  whole transposed basis, and the body stores, at (t, c), the root of the squares of coefficients c and c + 513 of
  frame t computed from four chunk products. So the block point b writes back is row b of one function of the
  argument arrays, the 32 blocks tile the output array, and the transpose after the region lays the magnitudes out
  as (batch, frequency bin, frame).
-/
import proofs.«162435_j42271068127681_1_alg».proof.Proof.KernelTerm
import proofs.«162435_j42271068127681_1_alg».proof.Proof.Frames
import proofs.«162435_j42271068127681_1_alg».proof.Proof.KernelPayload
import proofs.«162435_j42271068127681_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.KValue

open Idealize.ShloMosaic Idealize.ShloMosaic.TcCoe Idealize.SL.Sem Idealize.ShloMosaic.StableHlo
open Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-! ## The region's operands as it finds them -/

/-- The first operand is the padded signal reshaped into chunks. -/
theorem V_chunks (c : Dev nD) : (V m c main_v1 : S32x1028x256.Idx → Elt Ideal .f32)
    = shapeCast S32x1028x256 (Term.padded (F := Ideal) (m ((c : Thread nD τ).loc main_arg0))) shapeCasts_S32x263168_S32x1028x256 := by
  dsimp only [V, V0]
  simp only [hostOps0, hostOps0_1, hostOps0_2, List.flatten_cons, List.flatten_nil, List.append_nil, List.cons_append, List.nil_append]
  after_results
  rfl

/-- The second operand is the basis transposed. -/
theorem V_basisT (c : Dev nD) : (V m c main_v2 : S1024x1026.Idx → Elt Ideal .f32)
    = transpose S1024x1026 [1, 0] (m ((c : Thread nD τ).loc main_arg1)) transposes_S1026x1024_S1024x1026_1_0 := by
  dsimp only [V, V0]
  simp only [hostOps0, hostOps0_1, hostOps0_2, List.flatten_cons, List.flatten_nil, List.append_nil, List.cons_append, List.nil_append]
  after_results

/-- Chunk r of row b, sample j, is sample 256·r + j of padded row b. -/
theorem chunks_apply (c : Dev nD) (b : Fin 32) (r : Fin 1028) (j : Fin 256) :
    (V m c main_v1 : S32x1028x256.Idx → Elt Ideal .f32) (ix3 b r j)
      = Term.padded (F := Ideal) (m ((c : Thread nD τ).loc main_arg0)) (ix2 b (⟨256 * r.val + j.val, by omega⟩ : Fin 263168)) := by
  rw [V_chunks]
  refine shapeCast_apply _ _ (ix3 b r j) (ix2 b (⟨256 * r.val + j.val, by omega⟩ : Fin 263168)) ?_
  rw [Shape.rowMajor_val_two, Shape.rowMajor_val_three]
  show b.val * 263168 + (256 * r.val + j.val) = (b.val * 1028 + r.val) * 256 + j.val
  omega

/-- The transposed basis at (n, c') is the basis at (c', n). -/
theorem basisT_apply (c : Dev nD) (n : Fin 1024) (c' : Fin 1026) :
    (V m c main_v2 : S1024x1026.Idx → Elt Ideal .f32) (ix2 n c') = m ((c : Thread nD τ).loc main_arg1) (ix2 c' n) := by
  rw [V_basisT]
  refine transpose_apply _ _ _ (ix2 n c') (ix2 c' n) ?_
  intro a
  match a with
  | ⟨0, _⟩ => rfl
  | ⟨1, _⟩ => rfl

/-! ## What a grid point writes back -/

/-- The region's output array as one function of the arguments: at (b, t, c) the magnitude of frame t, bin c, row b. -/
def G (c : Dev nD) : S32x1025x513.Idx → Elt Ideal .f32 := fun i =>
  Cert.Stft.mag (Term.padded (F := Ideal) (m ((c : Thread nD τ).loc main_arg0))) (m ((c : Thread nD τ).loc main_arg1)) (i 0) (i 2) (i 1)

theorem hz3 : (![0, 0, 0] : Fin 3 → Nat) = fun _ => 0 := funext fun a => by fin_cases a <;> rfl
theorem hz2 : (![0, 0] : Fin 2 → Nat) = fun _ => 0 := funext fun a => by fin_cases a <;> rfl

/-- The block index of each window at a point: the point's number on the batch axis, zero elsewhere. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The first window's block at point t, read at (0, r, j), is chunk r of row t. -/
theorem iblk0_apply (c : Dev nD) (t : Fin cfg0.N) (r : Fin 1028) (j : Fin 256) :
    iblk m c 0 t (ix3 (0 : Fin 1) r j)
      = Term.padded (F := Ideal) (m ((c : Thread nD τ).loc main_arg0)) (ix2 (⟨t.val, by have := t.isLt; have hN : cfg0.N = 32 := N_0; omega⟩ : Fin 32) (⟨256 * r.val + j.val, by omega⟩ : Fin 263168)) := by
  obtain ⟨e0, e1, e2, -⟩ := idx_facts t
  have ht : t.val < 32 := by have := t.isLt; have hN : cfg0.N = 32 := N_0; omega
  refine Eq.trans ?_ (chunks_apply m c ⟨t.val, ht⟩ r j)
  show V m c main_v1 (((cfg0.win 0).blk t).view.emb (ix3 (0 : Fin 1) r j)) = V m c main_v1 (ix3 (⟨t.val, ht⟩ : Fin 32) r j)
  refine congrArg (V m c main_v1) (funext fun a => Fin.ext ?_)
  match a with
  | ⟨0, _⟩ => show win0_0.index t (0 : Fin 3) * 1 + 1 * 0 = t.val; omega
  | ⟨1, _⟩ => show win0_0.index t (1 : Fin 3) * 1028 + 1 * r.val = r.val; omega
  | ⟨2, _⟩ => show win0_0.index t (2 : Fin 3) * 256 + 1 * j.val = j.val; omega

/-- The second window's block, at every point, is the whole transposed basis. -/
theorem iblk1_apply (c : Dev nD) (t : Fin cfg0.N) (n : Fin 1024) (c' : Fin 1026) :
    iblk m c 1 t (ix2 n c') = m ((c : Thread nD τ).loc main_arg1) (ix2 c' n) := by
  obtain ⟨-, -, -, e0, e1, -⟩ := idx_facts t
  refine Eq.trans ?_ (basisT_apply m c n c')
  show V m c main_v2 (((cfg0.win 1).blk t).view.emb (ix2 n c')) = V m c main_v2 (ix2 n c')
  refine congrArg (V m c main_v2) (funext fun a => Fin.ext ?_)
  match a with
  | ⟨0, _⟩ => show win0_1.index t (0 : Fin 2) * 1024 + 1 * n.val = n.val; omega
  | ⟨1, _⟩ => show win0_1.index t (1 : Fin 2) * 1026 + 1 * c'.val = c'.val; omega

/-- WHAT POINT t WRITES BACK is block t of G. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz3]
  simp only [View.ld_unit_zero (S := S1x1028x256) hz3, View.ld_unit_zero (S := S1024x1026) hz2]
  have ht : t.val < 32 := by have := t.isLt; have hN : cfg0.N = 32 := N_0; omega
  obtain ⟨-, -, -, -, -, e0, e1, e2⟩ := idx_facts t
  funext y
  obtain ⟨p, q, rfl⟩ : ∃ (p : Fin 1025) (q : Fin 513), y = ix3 (0 : Fin 1) p q :=
    ⟨y 1, y 2, funext fun a => by
      match a with
      | ⟨0, h⟩ => exact Fin.ext (by have h0 : (y ⟨0, h⟩).val < 1 := (y ⟨0, h⟩).isLt; show (y ⟨0, h⟩).val = 0; omega)
      | ⟨1, _⟩ => rfl
      | ⟨2, _⟩ => rfl⟩
  refine (Payload.pay_apply (iblk m c 0 t) (iblk m c 1 t) p q).trans ?_
  refine (Cert.Stft.magChunks_eq (Term.padded (F := Ideal) (m ((c : Thread nD τ).loc main_arg0))) (m ((c : Thread nD τ).loc main_arg1))
    (iblk m c 0 t) (iblk m c 1 t) ⟨t.val, ht⟩ (iblk0_apply m c t) (iblk1_apply m c t) p q).trans ?_
  show _ = G m c (((cfg0.win 2).blk t).view.emb (ix3 (0 : Fin 1) p q))
  have he : ((cfg0.win 2).blk t).view.emb (ix3 (0 : Fin 1) p q) = ix3 (⟨t.val, ht⟩ : Fin 32) p q := by
    funext a; apply Fin.ext
    match a with
    | ⟨0, _⟩ => show win0_2.index t (0 : Fin 3) * 1 + 1 * 0 = t.val; omega
    | ⟨1, _⟩ => show win0_2.index t (1 : Fin 3) * 1025 + 1 * p.val = p.val; omega
    | ⟨2, _⟩ => show win0_2.index t (2 : Fin 3) * 513 + 1 * q.val = q.val; omega
  rw [he]
  rfl

/-- An index of the output array is in point t's block iff each coordinate is in the block's range. -/
theorem mem_blk (t : Fin cfg0.N) (i : S32x1025x513.Idx) :
    i ∈ ((cfg0.win 2).blk t).view.set ↔ ∀ a : Fin 3, win0_2.index t a * S1x1025x513.size a ≤ (i a).val ∧ (i a).val < win0_2.index t a * S1x1025x513.size a + S1x1025x513.size a := by
  show i ∈ ((View.whole main_v3).slice (win0_2.rect t)).set ↔ _
  rw [View.set_slice_whole, Rect.mem_set_unit]
  exact Iff.rfl

/-- Every index of the output array is in the block of the point its batch coordinate names. -/
theorem cover (i : S32x1025x513.Idx) : ∃ t : Fin cfg0.N, (cfg0.win 2).flush t = true ∧ i ∈ ((cfg0.win 2).blk t).view.set := by
  have hi0 : (i 0).val < 32 := (i 0).isLt
  have hi1 : (i 1).val < 1025 := (i 1).isLt
  have hi2 : (i 2).val < 513 := (i 2).isLt
  refine ⟨⟨(i 0).val, by have hN : grid0.N = 32 := N_0; show (i 0).val < grid0.N; omega⟩, flush0_2 _, ?_⟩
  rw [mem_blk]
  obtain ⟨-, -, -, -, -, e0, e1, e2⟩ := idx_facts ⟨(i 0).val, by have hN : grid0.N = 32 := N_0; show (i 0).val < grid0.N; omega⟩
  intro a
  match a with
  | ⟨0, _⟩ => show win0_2.index _ (0 : Fin 3) * 1 ≤ (i 0).val ∧ (i 0).val < win0_2.index _ (0 : Fin 3) * 1 + 1; simp only [] at e0; omega
  | ⟨1, _⟩ => show win0_2.index _ (1 : Fin 3) * 1025 ≤ (i 1).val ∧ (i 1).val < win0_2.index _ (1 : Fin 3) * 1025 + 1025; omega
  | ⟨2, _⟩ => show win0_2.index _ (2 : Fin 3) * 513 ≤ (i 2).val ∧ (i 2).val < win0_2.index _ (2 : Fin 3) * 513 + 513; omega

/-- THE OUTPUT ARRAY after the region is G. -/
theorem final (c : Dev nD) : (dats m 0 c).arrAt 2 cfg0.N = G m c :=
  (dats m 0 c).arrAt_eq_of_cover 2 (G m c) (fun t _ => flushed_eq m c t) cover

/-! ## The transpose after the region, and the run -/

/-- The program's result: the magnitudes laid out (batch, bin, frame). -/
theorem result_eq (c : Dev nD) :
    Pipeline.afterTail₀ cfgs (dats m) 0 (V0 m) [hostOps1] c main_v4
      = Cert.Stft.magnitude (Term.padded (F := Ideal) (m ((c : Thread nD τ).loc main_arg0))) (m ((c : Thread nD τ).loc main_arg1)) := by
  unfold Pipeline.afterTail₀
  show StableHlo.after hostOps1 _ (Proc.devRef .tc main_v4) = _
  after_results
  rw [(Pipeline.withArrays_arr spec0 launch0.win.arr_inj c _ _ 2).trans (final m c)]
  funext i
  obtain ⟨b, q, p, rfl⟩ : ∃ (b : Fin 32) (q : Fin 513) (p : Fin 1025), i = ix3 b q p := ⟨i 0, i 1, i 2, eq_ix3 i⟩
  refine (transpose_apply _ _ _ (ix3 b q p) (ix3 b p q) ?_).trans rfl
  intro a
  match a with
  | ⟨0, _⟩ => rfl
  | ⟨1, _⟩ => rfl
  | ⟨2, _⟩ => rfl

/-- The kernel program's run: it ends with its result array at the magnitudes and its arguments unchanged. -/
theorem run : θ_run defs (onTc (τ := τ) (main (F := Ideal))) ⟨m, fun _ => 0, ρ⟩ fun r => ∀ c : Dev nD,
      r.2.mem ((c.tc : Thread nD τ).loc main_v4)
        = Cert.Stft.magnitude (Term.padded (F := Ideal) (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefTerm.lean ====
/-
  The reference's result as one term of its two argument arrays: the reflect padding of the signal, the grid of
  gather positions 256·t + n, the gathered frames, their contraction with the basis, and the magnitude of the
  real and imaginary halves.
-/
import proofs.«162435_j42271068127681_1_alg».proof.Proof.Gen.ReferenceIdeal

noncomputable section

namespace Cert.ReferenceIdeal.Term

open Idealize.ShloMosaic Cert.ReferenceIdeal Cert.ReferenceIdeal.Gen

variable {F : FTy → Type} [FloatOps F]

/-- The signal reflect-padded by 512 samples at each end: samples 512 … 1 reversed in front, then the signal,
    then its samples 262142 … 261631 reversed behind. -/
def padded (x : FVec F S32x262144 .f32) : FVec F S32x263168 .f32 :=
  concatenate S32x263168 1
    [⟨S32x262656, concatenate S32x262656 1 [⟨S32x512, Host.reverse [1] (extractStridedSlice S32x512 ![0, 1] x slices_S32x262144_S32x512_0_1)⟩, ⟨S32x262144, x⟩] concatenates_S32x512_S32x262144_S32x262656_d1⟩,
     ⟨S32x512, Host.reverse [1] (extractStridedSlice S32x512 ![0, 262143]
        (concatenate S32x262656 1 [⟨S32x512, Host.reverse [1] (extractStridedSlice S32x512 ![0, 1] x slices_S32x262144_S32x512_0_1)⟩, ⟨S32x262144, x⟩] concatenates_S32x512_S32x262144_S32x262656_d1)
        slices_S32x262656_S32x512_0_262143)⟩]
    concatenates_S32x262656_S32x512_S32x263168_d1

/-- The position grid before wrapping: at (t, n) the word 256·t + n. -/
def rawGrid : IVec S1025x1024 32 :=
  addi
    (broadcastInDim S1025x1024 ![0, 1] bcast_S1025x1_S1025x1024_0_1
      (muli (broadcastInDim S1025x1 ![0] bcast_S1025_S1025x1_0 (iotaInDim S1025 32 0))
        (broadcastInDim S1025x1 ![] bcast_S_S1025x1 (constantI S_ 32 256#32))))
    (broadcastInDim S1025x1024 ![0, 1] bcast_S1x1024_S1025x1024_0_1
      (broadcastInDim S1x1024 ![1] bcast_S1024_S1x1024_1 (iotaInDim S1024 32 0)))

/-- The position grid: a negative position wrapped by the row length (none is), with a trailing unit axis. -/
def grid : IVec S1025x1024x1 32 :=
  broadcastInDim S1025x1024x1 ![0, 1] bcast_S1025x1024_S1025x1024x1_0_1
    (select (cmpi .slt rawGrid (broadcastInDim S1025x1024 ![] bcast_S_S1025x1024 (constantI S_ 32 0#32)))
      (addi rawGrid (broadcastInDim S1025x1024 ![] bcast_S_S1025x1024 (constantI S_ 32 263168#32)))
      rawGrid)

/-- All coefficients: basis rows against the gathered frames, laid out batch, coefficient, frame. -/
def coeffs (x : FVec F S32x262144 .f32) (w : FVec F S1026x1024 .f32) : FVec F S32x1026x1025 .f32 :=
  transpose S32x1026x1025 [1, 0, 2]
    (Host.dotGeneral dot_S1026x1024_S32x1025x1024_S1026x32x1025_1_2_0_01_n_n none w
      (Host.gather gather_S32x263168_S1025x1024x1_S32x1025x1024_0_1_n_n_1_2_321 (padded x) grid))
    transposes_S1026x32x1025_S32x1026x1025_1_0_2

/-- The reference's result. -/
def out (x : FVec F S32x262144 .f32) (w : FVec F S1026x1024 .f32) : FVec F S32x513x1025 .f32 :=
  Host.sqrt
    (addf
      (mulf (extractStridedSlice S32x513x1025 ![0, 0, 0] (coeffs x w) slices_S32x1026x1025_S32x513x1025_0_0_0)
        (extractStridedSlice S32x513x1025 ![0, 0, 0] (coeffs x w) slices_S32x1026x1025_S32x513x1025_0_0_0))
      (mulf (extractStridedSlice S32x513x1025 ![0, 513, 0] (coeffs x w) slices_S32x1026x1025_S32x513x1025_0_513_0)
        (extractStridedSlice S32x513x1025 ![0, 513, 0] (coeffs x w) slices_S32x1026x1025_S32x513x1025_0_513_0)))

end Cert.ReferenceIdeal.Term

end
-- ==== Proof.RefRun.lean ====
/-
  The reference program's run. @main calls the outlined padding function, which calls the outlined reversal twice;
  with the calls unfolded the program is a straight line of host operations: the scalar zero the padding function
  takes (and never reads), the eight operations of the padding, and the twenty-seven of @main after the call. The
  line is cut after the padding: the first stretch leaves the reflect-padded signal in the call's result buffer, the
  second reads that buffer and the basis and leaves the magnitudes in the result. Every weakly fair execution
  terminates with the result buffer at the composed term of the two arguments, and the arguments unchanged.
-/
import proofs.«162435_j42271068127681_1_alg».proof.Proof.RefTerm
import Idealize.ShloMosaic.Lib.StableHlo.Run

noncomputable section

namespace Cert.ReferenceIdeal.Hand.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The scalar zero and the eight operations of the padding function, the two reversals in their places, over the
    buffers of @main's one call of it. -/
abbrev opsPad : List (HloOp τ sig (Elt F)) :=
  [ nullary main_c (constantI S_ 32 0#32),
    TRef.unary (.of main_arg0 : TRef sig ⟨S32x262144, .f32⟩) main_call0.v0 (extractStridedSlice S32x1 ![0, 0] · slices_S32x262144_S32x1_0_0),
    TRef.unary (.of main_arg0 : TRef sig ⟨S32x262144, .f32⟩) main_call0.v1 (extractStridedSlice S32x512 ![0, 1] · slices_S32x262144_S32x512_0_1),
    TRef.unary main_call0.v1 main_call0.call0.v0 (Host.reverse [1]),
    TRef.binary main_call0.call0.v0 (.of main_arg0 : TRef sig ⟨S32x262144, .f32⟩) main_call0.v3 (fun a b => concatenate S32x262656 1 [⟨S32x512, a⟩, ⟨S32x262144, b⟩] concatenates_S32x512_S32x262144_S32x262656_d1),
    TRef.unary main_call0.v3 main_call0.v4 (extractStridedSlice S32x1 ![0, 262655] · slices_S32x262656_S32x1_0_262655),
    TRef.unary main_call0.v3 main_call0.v5 (extractStridedSlice S32x512 ![0, 262143] · slices_S32x262656_S32x512_0_262143),
    TRef.unary main_call0.v5 main_call0.call1.v0 (Host.reverse [1]),
    TRef.binary main_call0.v3 main_call0.call1.v0 main_call0.v7 (fun a b => concatenate S32x263168 1 [⟨S32x262656, a⟩, ⟨S32x512, b⟩] concatenates_S32x262656_S32x512_S32x263168_d1) ]

/-- @main's twenty-seven operations after the call. -/
abbrev opsMain : List (HloOp τ sig (Elt F)) :=
  [ nullary main_v1 (iotaInDim S1025 32 0),
    unary main_v1 main_v2 (broadcastInDim S1025x1 ![0] bcast_S1025_S1025x1_0 : (⟨S1025, .i32⟩ : BufTy).Contents (Elt F) → (⟨S1025x1, .i32⟩ : BufTy).Contents (Elt F)),
    nullary main_c_0 (constantI S_ 32 256#32),
    unary main_c_0 main_v3 (broadcastInDim S1025x1 ![] bcast_S_S1025x1 : (⟨S_, .i32⟩ : BufTy).Contents (Elt F) → (⟨S1025x1, .i32⟩ : BufTy).Contents (Elt F)),
    binary main_v2 main_v3 main_v4 (muli : (⟨S1025x1, .i32⟩ : BufTy).Contents (Elt F) → (⟨S1025x1, .i32⟩ : BufTy).Contents (Elt F) → (⟨S1025x1, .i32⟩ : BufTy).Contents (Elt F)),
    nullary main_v5 (iotaInDim S1024 32 0),
    unary main_v5 main_v6 (broadcastInDim S1x1024 ![1] bcast_S1024_S1x1024_1 : (⟨S1024, .i32⟩ : BufTy).Contents (Elt F) → (⟨S1x1024, .i32⟩ : BufTy).Contents (Elt F)),
    unary main_v4 main_v7 (broadcastInDim S1025x1024 ![0, 1] bcast_S1025x1_S1025x1024_0_1 : (⟨S1025x1, .i32⟩ : BufTy).Contents (Elt F) → (⟨S1025x1024, .i32⟩ : BufTy).Contents (Elt F)),
    unary main_v6 main_v8 (broadcastInDim S1025x1024 ![0, 1] bcast_S1x1024_S1025x1024_0_1 : (⟨S1x1024, .i32⟩ : BufTy).Contents (Elt F) → (⟨S1025x1024, .i32⟩ : BufTy).Contents (Elt F)),
    binary main_v7 main_v8 main_v9 (addi : (⟨S1025x1024, .i32⟩ : BufTy).Contents (Elt F) → (⟨S1025x1024, .i32⟩ : BufTy).Contents (Elt F) → (⟨S1025x1024, .i32⟩ : BufTy).Contents (Elt F)),
    nullary main_c_1 (constantI S_ 32 0#32),
    unary main_c_1 main_v10 (broadcastInDim S1025x1024 ![] bcast_S_S1025x1024 : (⟨S_, .i32⟩ : BufTy).Contents (Elt F) → (⟨S1025x1024, .i32⟩ : BufTy).Contents (Elt F)),
    binary main_v9 main_v10 main_v11 (cmpi .slt : (⟨S1025x1024, .i32⟩ : BufTy).Contents (Elt F) → (⟨S1025x1024, .i32⟩ : BufTy).Contents (Elt F) → (⟨S1025x1024, .i1⟩ : BufTy).Contents (Elt F)),
    nullary main_c_2 (constantI S_ 32 263168#32),
    unary main_c_2 main_v12 (broadcastInDim S1025x1024 ![] bcast_S_S1025x1024 : (⟨S_, .i32⟩ : BufTy).Contents (Elt F) → (⟨S1025x1024, .i32⟩ : BufTy).Contents (Elt F)),
    binary main_v9 main_v12 main_v13 (addi : (⟨S1025x1024, .i32⟩ : BufTy).Contents (Elt F) → (⟨S1025x1024, .i32⟩ : BufTy).Contents (Elt F) → (⟨S1025x1024, .i32⟩ : BufTy).Contents (Elt F)),
    ternary main_v11 main_v13 main_v9 main_v14 (select : (⟨S1025x1024, .i1⟩ : BufTy).Contents (Elt F) → (⟨S1025x1024, .i32⟩ : BufTy).Contents (Elt F) → (⟨S1025x1024, .i32⟩ : BufTy).Contents (Elt F) → (⟨S1025x1024, .i32⟩ : BufTy).Contents (Elt F)),
    unary main_v14 main_v15 (broadcastInDim S1025x1024x1 ![0, 1] bcast_S1025x1024_S1025x1024x1_0_1 : (⟨S1025x1024, .i32⟩ : BufTy).Contents (Elt F) → (⟨S1025x1024x1, .i32⟩ : BufTy).Contents (Elt F)),
    binary main_v0 main_v15 main_v16 ((fun x i => Host.gather gather_S32x263168_S1025x1024x1_S32x1025x1024_0_1_n_n_1_2_321 x i) : (⟨S32x263168, .f32⟩ : BufTy).Contents (Elt F) → (⟨S1025x1024x1, .i32⟩ : BufTy).Contents (Elt F) → (⟨S32x1025x1024, .f32⟩ : BufTy).Contents (Elt F)),
    binary main_arg1 main_v16 main_v17 ((fun l r => Host.dotGeneral dot_S1026x1024_S32x1025x1024_S1026x32x1025_1_2_0_01_n_n none l r) : (⟨S1026x1024, .f32⟩ : BufTy).Contents (Elt F) → (⟨S32x1025x1024, .f32⟩ : BufTy).Contents (Elt F) → (⟨S1026x32x1025, .f32⟩ : BufTy).Contents (Elt F)),
    unary main_v17 main_v18 ((transpose S32x1026x1025 [1, 0, 2] · transposes_S1026x32x1025_S32x1026x1025_1_0_2) : (⟨S1026x32x1025, .f32⟩ : BufTy).Contents (Elt F) → (⟨S32x1026x1025, .f32⟩ : BufTy).Contents (Elt F)),
    unary main_v18 main_v19 ((extractStridedSlice S32x513x1025 ![0, 0, 0] · slices_S32x1026x1025_S32x513x1025_0_0_0) : (⟨S32x1026x1025, .f32⟩ : BufTy).Contents (Elt F) → (⟨S32x513x1025, .f32⟩ : BufTy).Contents (Elt F)),
    unary main_v18 main_v20 ((extractStridedSlice S32x513x1025 ![0, 513, 0] · slices_S32x1026x1025_S32x513x1025_0_513_0) : (⟨S32x1026x1025, .f32⟩ : BufTy).Contents (Elt F) → (⟨S32x513x1025, .f32⟩ : BufTy).Contents (Elt F)),
    binary main_v19 main_v19 main_v21 (mulf : (⟨S32x513x1025, .f32⟩ : BufTy).Contents (Elt F) → (⟨S32x513x1025, .f32⟩ : BufTy).Contents (Elt F) → (⟨S32x513x1025, .f32⟩ : BufTy).Contents (Elt F)),
    binary main_v20 main_v20 main_v22 (mulf : (⟨S32x513x1025, .f32⟩ : BufTy).Contents (Elt F) → (⟨S32x513x1025, .f32⟩ : BufTy).Contents (Elt F) → (⟨S32x513x1025, .f32⟩ : BufTy).Contents (Elt F)),
    binary main_v21 main_v22 main_v23 (addf : (⟨S32x513x1025, .f32⟩ : BufTy).Contents (Elt F) → (⟨S32x513x1025, .f32⟩ : BufTy).Contents (Elt F) → (⟨S32x513x1025, .f32⟩ : BufTy).Contents (Elt F)),
    unary main_v23 main_v24 (Host.sqrt : (⟨S32x513x1025, .f32⟩ : BufTy).Contents (Elt F) → (⟨S32x513x1025, .f32⟩ : BufTy).Contents (Elt F)) ]

/-- The whole line. -/
abbrev ops : List (HloOp τ sig (Elt F)) := opsPad ++ opsMain

/-- Two lines folded one after the other are their concatenation folded as one. -/
theorem after_chunks : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_chunks l₁ l₂]

/-! ## @main is that line -/

set_option maxRecDepth 2048 in
/-- The calls unfolded and sequencing reassociated, @main is the first stretch followed by the second. -/
theorem main_eq (c : Dev nD) : main (F := F) c = seq ops := by
  rw [show (ops : List (HloOp τ sig (Elt F))) = opsPad ++ opsMain from rfl, seq_append]
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsPad_sub : (opsPad : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub ..⟩
theorem opsMain_sub : (opsMain : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., unary_bufs_sub .., binary_bufs_sub .., binary_bufs_sub .., binary_bufs_sub .., unary_bufs_sub ..⟩
theorem ops_sub : (ops : List (HloOp τ sig (Elt F))).Forall fun op => op.bufs ⊆ tcRefs τ sig :=
  List.forall_append.mpr ⟨opsPad_sub, opsMain_sub⟩

/-- No operation of the line leaves a result undetermined. -/
theorem opsPad_fresh : ∀ op ∈ (opsPad : List (HloOp τ sig (Elt F))), op.fresh = ∅ := by
  intro _ h; (repeat (cases h with | head => rfl | tail _ h => ?_)); exact nomatch h
theorem opsMain_fresh : ∀ op ∈ (opsMain : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h =>
  (List.mem_append.mp h).elim (opsPad_fresh op) (opsMain_fresh op)

/-! ## What the line leaves in the buffers -/

/-- All coefficients as a term of the padded signal, whatever it holds, and the basis. -/
def coeffsOf (p : FVec F S32x263168 .f32) (w : FVec F S1026x1024 .f32) : FVec F S32x1026x1025 .f32 :=
  transpose S32x1026x1025 [1, 0, 2]
    (Host.dotGeneral dot_S1026x1024_S32x1025x1024_S1026x32x1025_1_2_0_01_n_n none w
      (Host.gather gather_S32x263168_S1025x1024x1_S32x1025x1024_0_1_n_n_1_2_321 p Term.grid))
    transposes_S1026x32x1025_S32x1026x1025_1_0_2

/-- The result as a term of the padded signal, whatever it holds, and the basis. -/
def outOf (p : FVec F S32x263168 .f32) (w : FVec F S1026x1024 .f32) : FVec F S32x513x1025 .f32 :=
  Host.sqrt
    (addf
      (mulf (extractStridedSlice S32x513x1025 ![0, 0, 0] (coeffsOf p w) slices_S32x1026x1025_S32x513x1025_0_0_0)
        (extractStridedSlice S32x513x1025 ![0, 0, 0] (coeffsOf p w) slices_S32x1026x1025_S32x513x1025_0_0_0))
      (mulf (extractStridedSlice S32x513x1025 ![0, 513, 0] (coeffsOf p w) slices_S32x1026x1025_S32x513x1025_0_513_0)
        (extractStridedSlice S32x513x1025 ![0, 513, 0] (coeffsOf p w) slices_S32x1026x1025_S32x513x1025_0_513_0)))

/-- The reference's result is that term at the reflect-padded signal. -/
theorem out_eq_outOf (x : FVec F S32x262144 .f32) (w : FVec F S1026x1024 .f32) :
    Term.out x w = outOf (Term.padded x) w := rfl

/-- The first stretch leaves the reflect-padded signal in the call's result buffer. -/
theorem pad_v0 (V : Valuation τ sig (Elt F)) :
    after opsPad V (Proc.devRef .tc main_v0) = Term.padded (V (Proc.devRef .tc main_arg0)) := by
  after_results
  rfl

theorem pad_arg0 (V : Valuation τ sig (Elt F)) :
    after opsPad V (Proc.devRef .tc main_arg0) = V (Proc.devRef .tc main_arg0) := by
  after_results

theorem pad_arg1 (V : Valuation τ sig (Elt F)) :
    after opsPad V (Proc.devRef .tc main_arg1) = V (Proc.devRef .tc main_arg1) := by
  after_results

/-- The second stretch leaves in the result buffer the magnitudes over whatever the call's result buffer and the
    basis buffer hold before it. -/
theorem main_v24_eq (V : Valuation τ sig (Elt F)) :
    after opsMain V (Proc.devRef .tc main_v24) = outOf (V (Proc.devRef .tc main_v0)) (V (Proc.devRef .tc main_arg1)) := by
  after_results_simp
  rfl

theorem main_arg0_eq (V : Valuation τ sig (Elt F)) :
    after opsMain V (Proc.devRef .tc main_arg0) = V (Proc.devRef .tc main_arg0) := by
  after_results_simp

theorem main_arg1_eq (V : Valuation τ sig (Elt F)) :
    after opsMain V (Proc.devRef .tc main_arg1) = V (Proc.devRef .tc main_arg1) := by
  after_results_simp

/-! ## The run -/

/-- The whole line leaves the reference's result in the result buffer. -/
theorem out_eq (V : Valuation τ sig (Elt F)) :
    after ops V (Proc.devRef .tc main_v24)
      = Term.out (V (Proc.devRef .tc main_arg0)) (V (Proc.devRef .tc main_arg1)) := by
  rw [show (ops : List (HloOp τ sig (Elt F))) = opsPad ++ opsMain from rfl, after_chunks, main_v24_eq, pad_v0, pad_arg1,
    out_eq_outOf]

theorem arg0_eq (V : Valuation τ sig (Elt F)) :
    after ops V (Proc.devRef .tc main_arg0) = V (Proc.devRef .tc main_arg0) := by
  rw [show (ops : List (HloOp τ sig (Elt F))) = opsPad ++ opsMain from rfl, after_chunks, main_arg0_eq, pad_arg0]

theorem arg1_eq (V : Valuation τ sig (Elt F)) :
    after ops V (Proc.devRef .tc main_arg1) = V (Proc.devRef .tc main_arg1) := by
  rw [show (ops : List (HloOp τ sig (Elt F))) = opsPad ++ opsMain from rfl, after_chunks, main_arg1_eq, pad_arg1]

end Cert.ReferenceIdeal.Hand.RefRun

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Hand.RefRun

variable {F : FTy → Type} [FloatOps F]

/-- On the one device, for any float values, from any memory with zero counters: every weakly fair execution of
    @main terminates with the result buffer at the reference's composed term of the two arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = Cert.ReferenceIdeal.Term.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ (fun _ => ops_fresh))

end Cert.ReferenceIdeal.Hand

end
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.LibGatherCols.lean ====
/-
  The column gather: for a table of B rows and N columns and an [R, C, 1] array of start indices, the gather
  whose result axis 0 is the offset axis (a whole column of B entries is the slice), whose table axis 1 is
  collapsed and named by the start index map, and whose index vector sits on the start indices' axis 2, reads
  at (b, p, q) the table's row b at the column that start index (p, q, 0) names, read signed and clamped into
  [0, N - 1].
-/
import Idealize.ShloMosaic.PureOps.Ideal
import Idealize.ShloMosaic.Lib.ValueIdx

noncomputable section

namespace Cert.LibGatherCols

open Idealize.ShloMosaic Idealize.ShloMosaic.ValueIdx

/-- The column gather read at (b, p, q). -/
theorem gather_cols {α : Type} {B N R C w : Nat} (d : GatherDims ⟨2, ![B, N]⟩ ⟨3, ![R, C, 1]⟩ ⟨3, ![B, R, C]⟩)
    (hoff : d.offsetDims = [0]) (hcoll : d.collapsedSliceDims = [1]) (hob : d.operandBatchingDims = [])
    (hsim : d.startIndexMap = [1]) (hivd : d.indexVectorDim = 2)
    (x : (⟨2, ![B, N]⟩ : Shape).Idx → α) (idx : IVec ⟨3, ![R, C, 1]⟩ w) (b : Fin B) (p : Fin R) (q : Fin C) (hN : 0 < N) :
    Host.gather d x idx (ix3 b p q)
      = x (ix2 b (⟨min (idx (ix3 p q (0 : Fin 1))).toInt.toNat (N - 1), by omega⟩ : Fin N)) := by
  obtain ⟨od, cd, ob, sb, sm, iv, ss, wf⟩ := d
  change od = [0] at hoff
  change cd = [1] at hcoll
  change ob = [] at hob
  change sm = [1] at hsim
  change iv = 2 at hivd
  subst hoff; subst hcoll; subst hob; subst hsim; subst hivd
  have hsl : ss 1 = 1 :=
    GatherDims.slice_collapsed (⟨[0], [1], [], sb, [1], 2, ss, wf⟩ : GatherDims ⟨2, ![B, N]⟩ ⟨3, ![R, C, 1]⟩ ⟨3, ![B, R, C]⟩) 1
      (List.mem_singleton.mpr rfl)
  unfold Host.gather
  congr 1
  funext a
  apply Fin.ext
  match a with
  | ⟨0, _⟩ =>
    -- the row: not named by the start index map, not a batching axis, the one kept axis: the result's offset coordinate
    show GatherDims.start _ _ idx 0 + GatherDims.batchCoord _ _ 0 + GatherDims.offCoord _ _ 0 = b.val
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept _ _).mpr ⟨show (0 : Fin 2) ∉ ([1] : List (Fin 2)) by decide, List.not_mem_nil⟩)]
    simp only [Nat.zero_add]
    rfl
  | ⟨1, _⟩ =>
    -- the column: the start index at (p, q, 0), read signed and clamped; no batching and no offset coordinate
    show GatherDims.start _ _ idx 1 + GatherDims.batchCoord _ _ 1 + GatherDims.offCoord _ _ 1 = min (idx (ix3 p q (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 1) = _
    rw [hsl]
    congr 3
    congr 1
    funext c
    apply Fin.ext
    match c with
    | ⟨0, _⟩ => rfl
    | ⟨1, _⟩ => rfl
    | ⟨2, _⟩ => rfl

end Cert.LibGatherCols

end
-- ==== Proof.RefValue.lean ====
/-
  The reference's result read at an index, at the ideal values: the position grid holds 256·t + n, in range, so
  neither the wrap nor the gather's clamp moves it; the gathered frame (b, t, n) is the padded signal's row b at
  sample 256·t + n; the contraction with the basis is the frame's coefficient; and the result is the magnitude of
  the real coefficient c and the imaginary coefficient c + 513.
-/
import proofs.«162435_j42271068127681_1_alg».proof.Proof.RefTerm
import proofs.«162435_j42271068127681_1_alg».proof.Proof.Frames
import proofs.«162435_j42271068127681_1_alg».proof.Proof.LibGS
import proofs.«162435_j42271068127681_1_alg».proof.Proof.LibGatherCols
import Idealize.ShloMosaic.PureOps.Ideal.Laws
import Idealize.ShloMosaic.Lib.ValueIdx
import Idealize.ShloMosaic.Lib.StableHlo.Predicate
import Idealize.ShloMosaic.Lib.Pipeline.Value

noncomputable section

namespace Cert.ReferenceIdeal.RefValue

open Idealize.ShloMosaic Idealize.ShloMosaic.ValueIdx
open Cert.ReferenceIdeal Cert.ReferenceIdeal.Gen
open scoped BigOperators

/-! ## The position grid -/

/-- The word 256·t + n, built as the grid builds it. -/
abbrev pos (t : Fin 1025) (n : Fin 1024) : BitVec 32 := BitVec.ofNat 32 t.val * 256#32 + BitVec.ofNat 32 n.val

/-- Its value: 256·t + n is at most 263167, far below 2³¹, so nothing wraps and the word reads the same signed. -/
theorem pos_toInt (t : Fin 1025) (n : Fin 1024) : (pos t n).toInt = ((256 * t.val + n.val : Nat) : Int) := by
  have ht := t.isLt
  have hn := n.isLt
  have hnat : (pos t n).toNat = 256 * t.val + n.val := by
    show (BitVec.ofNat 32 t.val * 256#32 + BitVec.ofNat 32 n.val).toNat = _
    rw [BitVec.toNat_add, BitVec.toNat_mul, BitVec.toNat_ofNat, BitVec.toNat_ofNat, BitVec.toNat_ofNat]
    omega
  rw [StableHlo.Predicate.toInt_eq_toNat_of_lt (by rw [hnat]; omega), hnat]

/-- The grid before the wrap holds that word at (t, n). -/
theorem rawGrid_apply (k : S1025x1024.Idx) : Term.rawGrid k = pos (k 0) (k 1) := rfl

/-- The grid holds it at (t, n, 0): the wrap leaves a non-negative word alone. -/
theorem grid_apply (t : Fin 1025) (n : Fin 1024) : Term.grid (ix3 t n (0 : Fin 1)) = pos t n := by
  have h : Term.grid (ix3 t n (0 : Fin 1))
      = Scalar.select (IntOp.cmpi .slt (pos t n) 0#32) (IntOp.addi (pos t n) 263168#32) (pos t n) := rfl
  rw [h]
  exact Cert.LibGS.wrap_of_nonneg _ _ (by rw [pos_toInt]; omega)

/-! ## The contraction's operand indices -/

theorem lhs_0 (i : S1026x32x1025.Idx) (q : dot_S1026x1024_S32x1025x1024_S1026x32x1025_1_2_0_01_n_n.contr.Idx) :
    (dot_S1026x1024_S32x1025x1024_S1026x32x1025_1_2_0_01_n_n.lhsIdx i q 0).val = (i 0).val := by
  unfold DotDims.lhsIdx
  rw [dif_neg (show ¬(0 : Fin S1026x1024.rank) ∈ dot_S1026x1024_S32x1025x1024_S1026x32x1025_1_2_0_01_n_n.lhsBatch by decide),
    dif_pos (show (0 : Fin S1026x1024.rank) ∈ dot_S1026x1024_S32x1025x1024_S1026x32x1025_1_2_0_01_n_n.lhsNonContracting by decide)]
  rfl

theorem lhs_1 (i : S1026x32x1025.Idx) (q : dot_S1026x1024_S32x1025x1024_S1026x32x1025_1_2_0_01_n_n.contr.Idx) :
    (dot_S1026x1024_S32x1025x1024_S1026x32x1025_1_2_0_01_n_n.lhsIdx i q 1).val = (q ⟨0, by decide⟩).val :=
  dot_S1026x1024_S32x1025x1024_S1026x32x1025_1_2_0_01_n_n.lhsIdx_val_of_single rfl i q

theorem rhs_0 (i : S1026x32x1025.Idx) (q : dot_S1026x1024_S32x1025x1024_S1026x32x1025_1_2_0_01_n_n.contr.Idx) :
    (dot_S1026x1024_S32x1025x1024_S1026x32x1025_1_2_0_01_n_n.rhsIdx i q 0).val = (i 1).val := by
  unfold DotDims.rhsIdx
  rw [dif_neg (show ¬(0 : Fin S32x1025x1024.rank) ∈ dot_S1026x1024_S32x1025x1024_S1026x32x1025_1_2_0_01_n_n.rhsBatch by decide),
    dif_pos (show (0 : Fin S32x1025x1024.rank) ∈ dot_S1026x1024_S32x1025x1024_S1026x32x1025_1_2_0_01_n_n.rhsNonContracting by decide)]
  rfl

theorem rhs_1 (i : S1026x32x1025.Idx) (q : dot_S1026x1024_S32x1025x1024_S1026x32x1025_1_2_0_01_n_n.contr.Idx) :
    (dot_S1026x1024_S32x1025x1024_S1026x32x1025_1_2_0_01_n_n.rhsIdx i q 1).val = (i 2).val := by
  unfold DotDims.rhsIdx
  rw [dif_neg (show ¬(1 : Fin S32x1025x1024.rank) ∈ dot_S1026x1024_S32x1025x1024_S1026x32x1025_1_2_0_01_n_n.rhsBatch by decide),
    dif_pos (show (1 : Fin S32x1025x1024.rank) ∈ dot_S1026x1024_S32x1025x1024_S1026x32x1025_1_2_0_01_n_n.rhsNonContracting by decide)]
  rfl

theorem rhs_2 (i : S1026x32x1025.Idx) (q : dot_S1026x1024_S32x1025x1024_S1026x32x1025_1_2_0_01_n_n.contr.Idx) :
    (dot_S1026x1024_S32x1025x1024_S1026x32x1025_1_2_0_01_n_n.rhsIdx i q 2).val = (q ⟨0, by decide⟩).val :=
  dot_S1026x1024_S32x1025x1024_S1026x32x1025_1_2_0_01_n_n.rhsIdx_val_of_single rfl i q

/-! ## The gathered frames -/

/-- Frame (b, t, n) of any table is the table's row b at sample 256·t + n: the start index is in range, so the
    gather's clamp leaves it alone. -/
theorem frames_apply (xp : FVec Ideal S32x263168 .f32) (b : Fin 32) (t : Fin 1025) (n : Fin 1024) :
    Host.gather gather_S32x263168_S1025x1024x1_S32x1025x1024_0_1_n_n_1_2_321 xp Term.grid (ix3 b t n)
      = xp (ix2 b (⟨256 * t.val + n.val, by omega⟩ : Fin 263168)) := by
  refine (Cert.LibGatherCols.gather_cols gather_S32x263168_S1025x1024x1_S32x1025x1024_0_1_n_n_1_2_321 rfl rfl rfl rfl rfl xp Term.grid b t n
    (by decide)).trans ?_
  refine congrArg (fun z => xp (ix2 b z)) (Fin.ext ?_)
  show min (Term.grid (ix3 t n (0 : Fin 1))).toInt.toNat (263168 - 1) = 256 * t.val + n.val
  rw [grid_apply]
  exact Cert.LibGS.clamp_of_inrange _ 263168 _ (pos_toInt t n) (by omega)

/-! ## The coefficients -/

/-- Coefficient (b, c, t) of the reference is the inner product of basis row c with frame t of row b. -/
theorem coeffs_apply (x : FVec Ideal S32x262144 .f32) (w : FVec Ideal S1026x1024 .f32) (b : Fin 32) (c : Fin 1026) (t : Fin 1025) :
    Term.coeffs (F := Ideal) x w (ix3 b c t) = Cert.Stft.coeff (Term.padded x) w b c t := by
  unfold Term.coeffs
  generalize Term.padded x = xp
  refine (transpose_apply [1, 0, 2] _ transposes_S1026x32x1025_S32x1026x1025_1_0_2 (ix3 b c t) (ix3 c b t) ?_).trans ?_
  · intro a
    match a with
    | ⟨0, _⟩ => rfl
    | ⟨1, _⟩ => rfl
    | ⟨2, _⟩ => rfl
  simp only [Host.dotGeneral]
  rw [Ideal.dotGeneral_apply, ← Equiv.sum_comp (ValueIdx.contrEquiv1 dot_S1026x1024_S32x1025x1024_S1026x32x1025_1_2_0_01_n_n 1024 rfl rfl).symm]
  unfold Cert.Stft.coeff
  refine Finset.sum_congr rfl fun k _ => ?_
  have hk := ValueIdx.contrEquiv1_symm_val dot_S1026x1024_S32x1025x1024_S1026x32x1025_1_2_0_01_n_n 1024 rfl rfl k
  have el : dot_S1026x1024_S32x1025x1024_S1026x32x1025_1_2_0_01_n_n.lhsIdx (ix3 c b t) ((ValueIdx.contrEquiv1 dot_S1026x1024_S32x1025x1024_S1026x32x1025_1_2_0_01_n_n 1024 rfl rfl).symm k) = ix2 c k := funext fun a => Fin.ext (by
    match a with
    | ⟨0, _⟩ => exact lhs_0 _ _
    | ⟨1, _⟩ => exact (lhs_1 _ _).trans hk)
  have er : dot_S1026x1024_S32x1025x1024_S1026x32x1025_1_2_0_01_n_n.rhsIdx (ix3 c b t) ((ValueIdx.contrEquiv1 dot_S1026x1024_S32x1025x1024_S1026x32x1025_1_2_0_01_n_n 1024 rfl rfl).symm k) = ix3 b t k := funext fun a => Fin.ext (by
    match a with
    | ⟨0, _⟩ => exact rhs_0 _ _
    | ⟨1, _⟩ => exact rhs_1 _ _
    | ⟨2, _⟩ => exact (rhs_2 _ _).trans hk)
  rw [el, er, frames_apply]

/-! ## The result -/

/-- The reference's result is the magnitude of the padded signal's frames against the basis. -/
theorem out_eq (x : FVec Ideal S32x262144 .f32) (w : FVec Ideal S1026x1024 .f32) :
    Cert.ReferenceIdeal.Term.out (F := Ideal) x w = Cert.Stft.magnitude (Cert.ReferenceIdeal.Term.padded x) w := by
  funext i
  obtain ⟨b, c, t, rfl⟩ : ∃ (b : Fin 32) (c : Fin 513) (t : Fin 1025), i = ix3 b c t := ⟨i 0, i 1, i 2, eq_ix3 i⟩
  have hc := c.isLt
  -- the real half: coefficient c
  have hre : extractStridedSlice S32x513x1025 ![0, 0, 0] (Term.coeffs (F := Ideal) x w) slices_S32x1026x1025_S32x513x1025_0_0_0 (ix3 b c t)
      = Cert.Stft.coeff (Term.padded x) w b (⟨c.val, by omega⟩ : Fin 1026) t := by
    refine (extractStridedSlice_apply _ _ _ (ix3 b c t) (ix3 b (⟨c.val, by omega⟩ : Fin 1026) t) ?_).trans (coeffs_apply x w b _ t)
    intro a
    match a with
    | ⟨0, _⟩ => show b.val = 0 + b.val; omega
    | ⟨1, _⟩ => show c.val = 0 + c.val; omega
    | ⟨2, _⟩ => show t.val = 0 + t.val; omega
  -- the imaginary half: coefficient c + 513
  have him : extractStridedSlice S32x513x1025 ![0, 513, 0] (Term.coeffs (F := Ideal) x w) slices_S32x1026x1025_S32x513x1025_0_513_0 (ix3 b c t)
      = Cert.Stft.coeff (Term.padded x) w b (⟨c.val + 513, by omega⟩ : Fin 1026) t := by
    refine (extractStridedSlice_apply _ _ _ (ix3 b c t) (ix3 b (⟨c.val + 513, by omega⟩ : Fin 1026) t) ?_).trans (coeffs_apply x w b _ t)
    intro a
    match a with
    | ⟨0, _⟩ => show b.val = 0 + b.val; omega
    | ⟨1, _⟩ => show c.val + 513 = 513 + c.val; omega
    | ⟨2, _⟩ => show t.val = 0 + t.val; omega
  unfold Term.out
  generalize hA : extractStridedSlice S32x513x1025 ![0, 0, 0] (Term.coeffs (F := Ideal) x w) slices_S32x1026x1025_S32x513x1025_0_0_0 = A at hre ⊢
  generalize hB : extractStridedSlice S32x513x1025 ![0, 513, 0] (Term.coeffs (F := Ideal) x w) slices_S32x1026x1025_S32x513x1025_0_513_0 = B at him ⊢
  show Ideal.sqrt (A (ix3 b c t) * A (ix3 b c t) + B (ix3 b c t) * B (ix3 b c t)) = Cert.Stft.mag (Term.padded x) w b c t
  rw [hre, him]
  rfl

end Cert.ReferenceIdeal.RefValue

end
-- ==== Proof.lean ====
/-
  The magnitude of a short-time Fourier transform, computed two ways, is one function of the arguments.

  Both programs reflect-pad each of the 32 signal rows by 512 samples at each end. The reference gathers the 1025
  overlapping frames of 1024 samples (frame t starts at sample 256·t), contracts each with the 1026 rows of the
  windowed Fourier basis, and takes the root of the squares of real coefficient c and imaginary coefficient c + 513.
  The kernel cuts the padded row into 1028 chunks of 256 samples: a frame is four consecutive chunks, so its
  coefficients are the sum of four products of a row-shifted block of chunks with a block of 256 basis taps; it then
  takes the same root, and a transpose lays the result out as (batch, bin, frame).

  At the ideal instance the rounding of the matrix operands to bfloat16 is the identity and the two sums differ only
  in grouping and order, which addition on the extended reals allows without any finiteness assumption; so the
  precondition is never opened. The ideal pass rewrote nothing, so the kernel's idealization is its own text.

  The three frames are the generated frame of the kernel program at both instances and the reference's run with its
  result dropped.
-/
import proofs.«162435_j42271068127681_1_alg».proof.Defs
import proofs.«162435_j42271068127681_1_alg».proof.Proof.Gen.Kernel
import proofs.«162435_j42271068127681_1_alg».proof.Proof.Gen.Kernel.Skeleton
import proofs.«162435_j42271068127681_1_alg».proof.Proof.Gen.Kernel.Launch
import proofs.«162435_j42271068127681_1_alg».proof.Proof.Gen.Kernel.Points
import proofs.«162435_j42271068127681_1_alg».proof.Proof.Gen.Kernel.Frame
import proofs.«162435_j42271068127681_1_alg».proof.Proof.Gen.KernelIdeal
import proofs.«162435_j42271068127681_1_alg».proof.Proof.Gen.KernelIdeal.Skeleton
import proofs.«162435_j42271068127681_1_alg».proof.Proof.Gen.KernelIdeal.Launch
import proofs.«162435_j42271068127681_1_alg».proof.Proof.Gen.KernelIdeal.Points
import proofs.«162435_j42271068127681_1_alg».proof.Proof.Gen.KernelIdeal.Frame
import proofs.«162435_j42271068127681_1_alg».proof.Proof.Gen.ReferenceIdeal
import proofs.«162435_j42271068127681_1_alg».proof.Proof.Gen.Pre_finite_inputs
import proofs.«162435_j42271068127681_1_alg».proof.Proof.KernelValue
import proofs.«162435_j42271068127681_1_alg».proof.Proof.RefRun
import proofs.«162435_j42271068127681_1_alg».proof.Proof.RefValue
import Idealize.ShloMosaic.Adequacy
import Idealize.ShloMosaic.Init

noncomputable section

namespace Cert.Proof

open Idealize.ShloMosaic Idealize.ShloMosaic.TcCoe Idealize.SL.Sem

/-- The two programs pad the signal by the same operations: their padded rows are one term. -/
theorem padded_agree (x : FVec Ideal Cert.KernelIdeal.S32x262144 .f32) :
    Cert.KernelIdeal.Term.padded (F := Ideal) x = Cert.ReferenceIdeal.Term.padded (F := Ideal) x := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- Both programs end with the magnitudes of the padded first argument against the second: the kernel's run states
    it, the reference's result term read at an index is it, and the arguments agree. -/
theorem algebraic : Cert.algebraic_KernelIdeal_ReferenceIdeal := by
  intro m ρ m' ρ' _ hagree
  refine ⟨fun c => Cert.Stft.magnitude
      (Cert.KernelIdeal.Term.padded (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.RefValue.out_eq, (hagree c).1, (hagree c).2, ← padded_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
